-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S16384x4096 : Shape := ⟨2, ![16384, 4096]⟩
abbrev S32768x2048 : Shape := ⟨2, ![32768, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S32768x2048 : S_.BroadcastsInDim S32768x2048 (![] : Fin 0 → Fin S32768x2048.rank)
  reducesTo_S32768x2048_S_d0_1 : S32768x2048.ReducesTo [0, 1] S_

variable [Facts]

def fn_part1 {F : FTy → Type} [FloatOps F] (main_v13 : IVec S_ 1) (main_v16 : IVec S32768x2048 1) : IVec S_ 1 :=
  let main_c_5 : IVec S_ 1 := constantI S_ 1 1#1
  let main_v17 : IVec S_ 1 := (fun x v => Host.reduce IntOp.andi x v reducesTo_S32768x2048_S_d0_1 h_S_) main_v16 main_c_5
  let main_v18 : IVec S_ 1 := andi main_v13 main_v17
  main_v18

def fn {F : FTy → Type} [FloatOps F] (main_arg0 : FVec F S8x1024x2048 .f32) (main_arg1 : FVec F S16384x4096 .f32) (main_arg2 : FVec F S16384x4096 .f32) (main_arg3 : FVec F S32768x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S32768x2048 .f32 := Host.absf main_arg3
  let main_cst_4 : FVec F S_ .f32 := constant S_ .f32 0x7F800000#32
  let main_v15 : FVec F S32768x2048 .f32 := broadcastInDim S32768x2048 ![] bcast_S_S32768x2048 main_cst_4
  let main_v16 : IVec S32768x2048 1 := cmpf .olt main_v14 main_v15
  fn_part1 (F := F) main_v13 main_v16
-- ==== Kernel.lean ====
abbrev S8x1024x2048 : Shape := ⟨3, ![8, 1024, 2048]⟩
abbrev S16384x4096 : Shape := ⟨2, ![16384, 4096]⟩
abbrev S32768x2048 : Shape := ⟨2, ![32768, 2048]⟩
abbrev S8x2048x4096 : Shape := ⟨3, ![8, 2048, 4096]⟩
abbrev S8x4096x2048 : Shape := ⟨3, ![8, 4096, 2048]⟩
abbrev S1x512x2048 : Shape := ⟨3, ![1, 512, 2048]⟩
abbrev S1x2048x512 : Shape := ⟨3, ![1, 2048, 512]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 12
  | .vmem => 11
  | .smem => 0
  | _ => 0

abbrev bufTy : (tb : Table) → Fin (tcTables nBuf tb) → BufTy
  | .hbm, ⟨0, _⟩ => ⟨S8x1024x2048, .f32⟩
  | .hbm, ⟨1, _⟩ => ⟨S16384x4096, .f32⟩
  | .hbm, ⟨2, _⟩ => ⟨S16384x4096, .f32⟩
  | .hbm, ⟨3, _⟩ => ⟨S32768x2048, .f32⟩
  | .hbm, ⟨4, _⟩ => ⟨S8x1024x2048, .bf16⟩
  | .hbm, ⟨5, _⟩ => ⟨S8x2048x4096, .f32⟩
  | .hbm, ⟨6, _⟩ => ⟨S8x2048x4096, .bf16⟩
  | .hbm, ⟨7, _⟩ => ⟨S8x2048x4096, .f32⟩
  | .hbm, ⟨8, _⟩ => ⟨S8x2048x4096, .bf16⟩
  | .hbm, ⟨9, _⟩ => ⟨S8x4096x2048, .f32⟩
  | .hbm, ⟨10, _⟩ => ⟨S8x4096x2048, .bf16⟩
  | .hbm, ⟨11, _⟩ => ⟨S8x1024x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S16384x4096_S8x2048x4096 : S16384x4096.ShapeCasts S8x2048x4096
  shapeCasts_S32768x2048_S8x4096x2048 : S32768x2048.ShapeCasts S8x4096x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S512x2048_S1x512x2048 : S512x2048.ShapeCasts S1x512x2048
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x1024x2048.size a
  hwx0_0 : ∀ i : grid0.Coords, EltTy.bits .bf16 = 32 ∨ (Rect.block (s := S8x1024x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x4096.size a
  hwx0_1 : ∀ i : grid0.Coords, EltTy.bits .bf16 = 32 ∨ (Rect.block (s := S8x2048x4096) S1x2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S8x2048x4096.size a
  hwx0_2 : ∀ i : grid0.Coords, EltTy.bits .bf16 = 32 ∨ (Rect.block (s := S8x2048x4096) S1x2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .bf16 = 32 ∨ (Rect.block (s := S8x4096x2048) S1x512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x1024x2048.size a
  hwx0_4 : ∀ i : grid0.Coords, EltTy.bits .f32 = 32 ∨ (Rect.block (s := S8x1024x2048) S1x512x2048.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1024x2048 : Shape := ⟨3, ![8, 1024, 2048]⟩
abbrev S16384x4096 : Shape := ⟨2, ![16384, 4096]⟩
abbrev S32768x2048 : Shape := ⟨2, ![32768, 2048]⟩
abbrev S8x2048x4096 : Shape := ⟨3, ![8, 2048, 4096]⟩
abbrev S8x4096x2048 : Shape := ⟨3, ![8, 4096, 2048]⟩
abbrev S8x1024x4096 : Shape := ⟨3, ![8, 1024, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S16384x4096, .f32⟩
  | .hbm, ⟨2, _⟩ => ⟨S16384x4096, .f32⟩
  | .hbm, ⟨3, _⟩ => ⟨S32768x2048, .f32⟩
  | .hbm, ⟨4, _⟩ => ⟨S8x2048x4096, .f32⟩
  | .hbm, ⟨5, _⟩ => ⟨S8x2048x4096, .f32⟩
  | .hbm, ⟨6, _⟩ => ⟨S8x4096x2048, .f32⟩
  | .hbm, ⟨7, _⟩ => ⟨S8x1024x4096, .f32⟩
  | .hbm, ⟨8, _⟩ => ⟨S8x1024x4096, .f32⟩
  | .hbm, ⟨9, _⟩ => ⟨S8x1024x4096, .f32⟩
  | .hbm, ⟨10, _⟩ => ⟨S_, .f32⟩
  | .hbm, ⟨11, _⟩ => ⟨S8x1024x4096, .f32⟩
  | .hbm, ⟨12, _⟩ => ⟨S8x1024x4096, .f32⟩
  | .hbm, ⟨13, _⟩ => ⟨S_, .f32⟩
  | .hbm, ⟨14, _⟩ => ⟨S8x1024x4096, .f32⟩
  | .hbm, ⟨15, _⟩ => ⟨S8x1024x4096, .f32⟩
  | .hbm, ⟨16, _⟩ => ⟨S8x1024x4096, .f32⟩
  | .hbm, ⟨17, _⟩ => ⟨S8x1024x4096, .f32⟩
  | .hbm, ⟨18, _⟩ => ⟨S8x1024x4096, .f32⟩
  | .hbm, ⟨19, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩

abbrev nD : Nat := 1
abbrev τ : Topo := Topo.v7x

variable {F : FTy → Type} [FloatOps F]

class Facts₀ : Prop where
  shapeCasts_S16384x4096_S8x2048x4096 : S16384x4096.ShapeCasts S8x2048x4096
  shapeCasts_S32768x2048_S8x4096x2048 : S32768x2048.ShapeCasts S8x4096x2048
  bcast_S_S8x1024x4096 : S_.BroadcastsInDim S8x1024x4096 (![] : Fin 0 → Fin S8x1024x4096.rank)
  dot_S8x1024x2048_S8x2048x4096_S8x1024x4096_2_1_1_2_0_0_wf : DotDims.WF S8x1024x2048 S8x2048x4096 S8x1024x4096 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x4096_S8x1024x4096_2_1_1_2_0_0 : DotDims S8x1024x2048 S8x2048x4096 S8x1024x4096 where
  lhsContracting := [2]
  rhsContracting := [1]
  lhsNonContracting := [1]
  rhsNonContracting := [2]
  lhsBatch := [0]
  rhsBatch := [0]
  wf := dot_S8x1024x2048_S8x2048x4096_S8x1024x4096_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.GluSpec.lean ====
/-
  The gated expert network as one function of its four argument arrays, and the algebra that joins a tiled
  accumulation to it.

  For expert e, token t and inner coordinate i, the two projections are
      p_g(e,t,i) = Σ_{d<2048} x[e,t,d] · gate[e·2048+d, i]      p_v(e,t,i) = Σ_{d<2048} x[e,t,d] · inner[e·2048+d, i]
  (the weights are flat: expert e's row d is row e·2048+d), the hidden value is
      h(e,t,i) = (p_g · σ(p_g)) · p_v          with σ(z) = 1 / (1 + e^(−z)),
  and the result is
      out[e,t,d] = Σ_{i<4096} h(e,t,i) · outp[e·4096+i, d].
  Everything is over the extended reals.  A sum over the 4096 inner coordinates is the sum over its eight tiles of 512
  of the tile sums, and a chain 0 + T₀ + T₁ + … + T_n built left to right is the sum of T₀ … T_n: both hold in any
  commutative additive monoid, so no finiteness of the entries is used.
-/
import Idealize.ShloMosaic.PureOps.Ideal.Laws
import Idealize.ShloMosaic.Lib.ValueIdx

noncomputable section

namespace Cert.Glu

open Idealize.ShloMosaic Idealize.ShloMosaic.ValueIdx

/-- The activations' shape [8, 1024, 2048] (also the result's). -/
abbrev SX : Shape := ⟨3, ![8, 1024, 2048]⟩
/-- The flat gate and inner weights' shape [16384, 4096]. -/
abbrev SW : Shape := ⟨2, ![16384, 4096]⟩
/-- The flat output weights' shape [32768, 2048]. -/
abbrev SP : Shape := ⟨2, ![32768, 2048]⟩

/-- Expert e's row d of the flat gate / inner weights. -/
def wrow (e : Fin 8) (d : Fin 2048) : Fin 16384 := ⟨e.val * 2048 + d.val, by have := e.isLt; have := d.isLt; omega⟩
/-- Expert e's row i of the flat output weights. -/
def prow (e : Fin 8) (i : Fin 4096) : Fin 32768 := ⟨e.val * 4096 + i.val, by have := e.isLt; have := i.isLt; omega⟩
/-- Coordinate k of tile j of the inner axis. -/
def tileIx (j : Fin 8) (k : Fin 512) : Fin 4096 := ⟨j.val * 512 + k.val, by have := j.isLt; have := k.isLt; omega⟩
/-- Row r of token block b. -/
def tokIx (b : Fin 2) (r : Fin 512) : Fin 1024 := ⟨b.val * 512 + r.val, by have := b.isLt; have := r.isLt; omega⟩

/-- The grid is 8 experts × 2 token blocks × 8 inner tiles, walked in row-major order: point n is expert n/16,
    token block (n/8) mod 2, inner tile n mod 8. -/
def pe (n : ℕ) : Fin 8 := ⟨n / 16 % 8, Nat.mod_lt _ (by decide)⟩
def pb (n : ℕ) : Fin 2 := ⟨n / 8 % 2, Nat.mod_lt _ (by decide)⟩
def pj (n : ℕ) : Fin 8 := ⟨n % 8, Nat.mod_lt _ (by decide)⟩

/-- One projection: the activations' row against a weight column of the expert. -/
def proj (X : SX.Idx → EReal) (W : SW.Idx → EReal) (e : Fin 8) (t : Fin 1024) (i : Fin 4096) : EReal :=
  ∑ d : Fin 2048, X (ix3 e t d) * W (ix2 (wrow e d) i)

/-- The gated hidden value (p_g · σ(p_g)) · p_v. -/
def hid (X : SX.Idx → EReal) (Wg Wi : SW.Idx → EReal) (e : Fin 8) (t : Fin 1024) (i : Fin 4096) : EReal :=
  (proj X Wg e t i * Ideal.logistic (proj X Wg e t i)) * proj X Wi e t i

/-- The result array. -/
def G (X : SX.Idx → EReal) (Wg Wi : SW.Idx → EReal) (Wo : SP.Idx → EReal) : SX.Idx → EReal := fun j =>
  ∑ i : Fin 4096, hid X Wg Wi (j 0) (j 1) i * Wo (ix2 (prow (j 0) i) (j 2))

/-- Tile j's share of an output entry: the sum over the tile's 512 inner coordinates. -/
def tile (X : SX.Idx → EReal) (Wg Wi : SW.Idx → EReal) (Wo : SP.Idx → EReal) (e : Fin 8) (t : Fin 1024) (d : Fin 2048)
    (j : Fin 8) : EReal :=
  ∑ k : Fin 512, hid X Wg Wi e t (tileIx j k) * Wo (ix2 (prow e (tileIx j k)) d)

/-- The same with the tile numbered by a natural number (read modulo 8). -/
def tileN (X : SX.Idx → EReal) (Wg Wi : SW.Idx → EReal) (Wo : SP.Idx → EReal) (e : Fin 8) (t : Fin 1024) (d : Fin 2048)
    (j : ℕ) : EReal :=
  tile X Wg Wi Wo e t d ⟨j % 8, Nat.mod_lt _ (by decide)⟩

/-- A sum over 4096 coordinates, tile by tile. -/
theorem sum_tiles {M : Type*} [AddCommMonoid M] (f : Fin 4096 → M) :
    ∑ i : Fin 4096, f i = ∑ j : Fin 8, ∑ k : Fin 512, f (tileIx j k) := by
  rw [← (finProdFinEquiv (m := 8) (n := 512)).sum_comp f, Fintype.sum_prod_type]
  refine Finset.sum_congr rfl fun j _ => Finset.sum_congr rfl fun k _ => congrArg f (Fin.ext ?_)
  show k.val + 512 * j.val = j.val * 512 + k.val
  omega

/-- The result entry is the sum of its eight tiles' shares. -/
theorem G_eq_tiles (X : SX.Idx → EReal) (Wg Wi : SW.Idx → EReal) (Wo : SP.Idx → EReal) (e : Fin 8) (t : Fin 1024)
    (d : Fin 2048) : G X Wg Wi Wo (ix3 e t d) = ∑ j ∈ Finset.range 8, tileN X Wg Wi Wo e t d j := by
  show ∑ i : Fin 4096, hid X Wg Wi e t i * Wo (ix2 (prow e i) d) = _
  rw [sum_tiles, Finset.sum_range]
  exact Finset.sum_congr rfl fun j _ => by
    unfold tileN tile
    have : (⟨j.val % 8, Nat.mod_lt _ (by decide)⟩ : Fin 8) = j := Fin.ext (Nat.mod_eq_of_lt j.isLt)
    rw [this]

/-- A running total started at zero and extended one term at a time is the sum of the terms so far. -/
theorem zero_add_sum_range_one {M : Type*} [AddCommMonoid M] (T : ℕ → M) : 0 + T 0 = ∑ j ∈ Finset.range (0 + 1), T j := by
  rw [zero_add, Finset.sum_range_one]

theorem sum_range_step {M : Type*} [AddCommMonoid M] (T : ℕ → M) (n : ℕ) :
    (∑ j ∈ Finset.range (n + 1), T j) + T (n + 1) = ∑ j ∈ Finset.range (n + 1 + 1), T j :=
  (Finset.sum_range_succ T (n + 1)).symm

/-- What the accumulator holds at row r, column d after grid point n: the shares of the inner tiles 0 … n mod 8 of the
    point's expert and token block. -/
def partialAt (X : SX.Idx → EReal) (Wg Wi : SW.Idx → EReal) (Wo : SP.Idx → EReal) (n : ℕ) (r : Fin 512) (d : Fin 2048) : EReal :=
  ∑ j ∈ Finset.range (n % 8 + 1), tileN X Wg Wi Wo (pe n) (tokIx (pb n) r) d j

/-- At the first tile of a run the accumulator, zeroed and then stepped, holds that tile's share. -/
theorem partial_first (X : SX.Idx → EReal) (Wg Wi : SW.Idx → EReal) (Wo : SP.Idx → EReal) (n : ℕ) (h0 : n % 8 = 0)
    (r : Fin 512) (d : Fin 2048) :
    0 + tile X Wg Wi Wo (pe n) (tokIx (pb n) r) d (pj n) = partialAt X Wg Wi Wo n r d := by
  unfold partialAt
  rw [h0, zero_add, Finset.sum_range_one]
  unfold tileN pj
  congr 1
  exact Fin.ext (by show n % 8 = 0 % 8; omega)

/-- At a later tile it holds what the point before left plus this tile's share: the point before is in the same run. -/
theorem partial_step (X : SX.Idx → EReal) (Wg Wi : SW.Idx → EReal) (Wo : SP.Idx → EReal) (n : ℕ) (h : ¬(n + 1) % 8 = 0)
    (r : Fin 512) (d : Fin 2048) :
    partialAt X Wg Wi Wo n r d + tile X Wg Wi Wo (pe (n + 1)) (tokIx (pb (n + 1)) r) d (pj (n + 1))
      = partialAt X Wg Wi Wo (n + 1) r d := by
  have he : pe (n + 1) = pe n := Fin.ext (by show (n + 1) / 16 % 8 = n / 16 % 8; omega)
  have hb : pb (n + 1) = pb n := Fin.ext (by show (n + 1) / 8 % 2 = n / 8 % 2; omega)
  have hm : (n + 1) % 8 = n % 8 + 1 := by omega
  unfold partialAt
  rw [he, hb, hm, Finset.sum_range_succ _ (n % 8 + 1)]
  congr 1
  unfold tileN pj
  congr 1
  exact Fin.ext (by show (n + 1) % 8 = (n % 8 + 1) % 8; omega)

/-- After the last tile of a run the accumulator holds the whole result entry. -/
theorem partial_last (X : SX.Idx → EReal) (Wg Wi : SW.Idx → EReal) (Wo : SP.Idx → EReal) (n : ℕ) (h7 : n % 8 = 7)
    (r : Fin 512) (d : Fin 2048) :
    partialAt X Wg Wi Wo n r d = G X Wg Wi Wo (ix3 (pe n) (tokIx (pb n) r) d) := by
  unfold partialAt
  rw [h7, G_eq_tiles]

/-- The float word 0x3F800000 is the number one. -/
theorem ofBits_one_f32 : Ideal.ofBits .f32 0x3F800000#32 = 1 := by
  simp [Ideal.ofBits, Ideal.ieee, -EReal.coe_mul]
  norm_num

end Cert.Glu

end
-- ==== Proof.GluRef.lean ====
/-
  The reference's result, read index by index, is the gated expert network of the specification: its three batched
  products are sums over the contracted axis, its silu is z · (1 / (1 + e^(−z))) — the logistic function spelt out —,
  and its reshapes of the flat weights read expert e's row d at flat row e·2048+d (e·4096+i for the output weights).
-/
import proofs.«145643_j53695681135019_1_alg».proof.Proof.Gen.ReferenceIdeal.Read
import proofs.«145643_j53695681135019_1_alg».proof.Proof.GluSpec

noncomputable section

namespace Cert.ReferenceIdeal.GluRef

open Cert.ReferenceIdeal Cert.ReferenceIdeal.Gen Cert.ReferenceIdeal.Read Idealize.ShloMosaic Idealize.ShloMosaic.ValueIdx
open Cert.Glu

/-- The reshaped gate / inner weights at (e, d, i) are the flat weights at row e·2048+d. -/
theorem idx_w (e : Fin 8) (d : Fin 2048) (i : Fin 4096) : idx_main_v0 (ix3 e d i) = ix2 (wrow e d) i := by
  have he := e.isLt; have hd := d.isLt; have hi := i.isLt
  funext a
  match a with
  | ⟨0, _⟩ => exact Fin.ext (by show ((e.val * 2048 + d.val) * 4096 + i.val) / 4096 = e.val * 2048 + d.val; omega)
  | ⟨1, _⟩ => exact Fin.ext (by show ((e.val * 2048 + d.val) * 4096 + i.val) % 4096 = i.val; omega)

/-- The reshaped output weights at (e, i, d) are the flat weights at row e·4096+i. -/
theorem idx_p (e : Fin 8) (i : Fin 4096) (d : Fin 2048) : idx_main_v2 (ix3 e i d) = ix2 (prow e i) d := by
  have he := e.isLt; have hd := d.isLt; have hi := i.isLt
  funext a
  match a with
  | ⟨0, _⟩ => exact Fin.ext (by show ((e.val * 4096 + i.val) * 2048 + d.val) / 2048 = e.val * 4096 + i.val; omega)
  | ⟨1, _⟩ => exact Fin.ext (by show ((e.val * 4096 + i.val) * 2048 + d.val) % 2048 = d.val; omega)

theorem lidx3 (e : Fin 8) (t : Fin 1024) (i : Fin 4096) (k : Fin 2048) : lidx_main_v3 (ix3 e t i) k = ix3 e t k :=
  funext fun a => match a with | ⟨0, _⟩ => rfl | ⟨1, _⟩ => rfl | ⟨2, _⟩ => rfl
theorem ridx3 (e : Fin 8) (t : Fin 1024) (i : Fin 4096) (k : Fin 2048) : ridx_main_v3 (ix3 e t i) k = ix3 e k i :=
  funext fun a => match a with | ⟨0, _⟩ => rfl | ⟨1, _⟩ => rfl | ⟨2, _⟩ => rfl
theorem lidx7 (e : Fin 8) (t : Fin 1024) (d : Fin 2048) (k : Fin 4096) : lidx_main_v7 (ix3 e t d) k = ix3 e t k :=
  funext fun a => match a with | ⟨0, _⟩ => rfl | ⟨1, _⟩ => rfl | ⟨2, _⟩ => rfl
theorem ridx7 (e : Fin 8) (t : Fin 1024) (d : Fin 2048) (k : Fin 4096) : ridx_main_v7 (ix3 e t d) k = ix3 e k d :=
  funext fun a => match a with | ⟨0, _⟩ => rfl | ⟨1, _⟩ => rfl | ⟨2, _⟩ => rfl

/-- The first batched product is the gate projection. -/
theorem proj_g (x0 : (⟨S8x1024x2048, .f32⟩ : BufTy).Contents (Elt Ideal)) (x1 : (⟨S16384x4096, .f32⟩ : BufTy).Contents (Elt Ideal))
    (e : Fin 8) (t : Fin 1024) (i : Fin 4096) : val_main_v3 (F := Ideal) x0 x1 (ix3 e t i) = proj x0 x1 e t i := by
  rw [val_main_v3_apply]
  unfold proj
  refine Finset.sum_congr rfl fun k _ => ?_
  rw [val_main_v0_apply, lidx3, ridx3, idx_w]

/-- The second batched product is the inner projection. -/
theorem proj_v (x0 : (⟨S8x1024x2048, .f32⟩ : BufTy).Contents (Elt Ideal)) (x2 : (⟨S16384x4096, .f32⟩ : BufTy).Contents (Elt Ideal))
    (e : Fin 8) (t : Fin 1024) (i : Fin 4096) : val_main_v5 (F := Ideal) x0 x2 (ix3 e t i) = proj x0 x2 e t i := by
  rw [val_main_v5_apply]
  unfold proj
  refine Finset.sum_congr rfl fun k _ => ?_
  rw [val_main_v1_apply]
  exact congrArg₂ (· * ·) (congrArg x0 (lidx3 e t i k)) (congrArg x2 ((congrArg idx_main_v1 (ridx3 e t i k)).trans (idx_w e k i)))

/-- silu(p_g) · p_v is the hidden value. -/
theorem hid_eq (x0 : (⟨S8x1024x2048, .f32⟩ : BufTy).Contents (Elt Ideal)) (x1 x2 : (⟨S16384x4096, .f32⟩ : BufTy).Contents (Elt Ideal))
    (e : Fin 8) (t : Fin 1024) (i : Fin 4096) : val_main_v6 (F := Ideal) x0 x1 x2 (ix3 e t i) = hid x0 x1 x2 e t i := by
  rw [val_main_v6_apply, val_main_v4_apply, val_main_call0_v5_apply, val_main_call0_v3_apply, val_main_call0_v1_apply,
    val_main_call0_v0_apply, val_main_call0_v4_apply, val_main_call0_v2_apply, val_main_call0_cst_apply,
    val_main_call0_cst_0_apply, proj_g, proj_v]
  show (proj x0 x1 e t i * Ideal.div (Ideal.ofBits .f32 0x3F800000#32) (Ideal.ofBits .f32 0x3F800000#32 + Ideal.exp (-(proj x0 x1 e t i)))) * proj x0 x2 e t i = _
  rw [ofBits_one_f32]
  rfl

/-- The reference's result is the specification's. -/
theorem result_eq (x0 : (⟨S8x1024x2048, .f32⟩ : BufTy).Contents (Elt Ideal)) (x1 x2 : (⟨S16384x4096, .f32⟩ : BufTy).Contents (Elt Ideal))
    (x3 : (⟨S32768x2048, .f32⟩ : BufTy).Contents (Elt Ideal)) : val_main_v7 (F := Ideal) x0 x1 x2 x3 = G x0 x1 x2 x3 := by
  funext j
  obtain ⟨e, t, d, rfl⟩ : ∃ (e : Fin 8) (t : Fin 1024) (d : Fin 2048), j = ix3 e t d := ⟨j 0, j 1, j 2, eq_ix3 j⟩
  rw [val_main_v7_apply]
  show _ = ∑ i : Fin 4096, hid x0 x1 x2 e t i * x3 (ix2 (prow e i) d)
  refine Finset.sum_congr rfl fun k _ => ?_
  rw [val_main_v2_apply, lidx7, ridx7, idx_p, hid_eq]

end Cert.ReferenceIdeal.GluRef

end
-- ==== Proof.LibReadCovWhole.lean ====
/-
  A whole-shape load after a list of stores.  The list holds the stores MOST RECENT FIRST: its head is the last store in
  time, its tail the earlier ones.  When that last store wrote the whole shape (a unit-stride rectangle at zero offsets of
  the shape's own extents), a load through that same rectangle reads that store's payload, whatever the earlier stores
  were: the last store covers every index, so the contents the list leaves are its payload.
  This is what an accumulator read back after "zero it, then store the sum" holds, and the output block of a kernel that
  copies such an accumulator out at the same grid point.
-/
import Idealize.ShloMosaic.Lib.Pipeline.Value

namespace Idealize.ShloMosaic.View

open Idealize.ShloMosaic

/-- A load of the whole shape after a list of stores (most recent first) whose most recent one, the list's head, stored
    the whole shape reads that store's payload `w`; `L` is the earlier stores. -/
theorem readCov_cons_whole {Val : EltTy → Type} [∀ e, Nonempty (Val e)] {sg : RefSig} {κ : Kind} {sp : Space} {S : Shape} {e : EltTy}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Idealize.ShloMosaic.View
-- ==== Proof.GluPieces.lean ====
/-
  What one grid point leaves in the accumulator and in the output block, as values.

  At the first inner tile of a (expert, token block) run the body stores a zero block Z into the accumulator, reads it
  back, adds the tile's product P to it and stores the sum; at every other tile it reads what the point before left,
  A, and stores A + P.  Either way it then copies the accumulator into the output block (a leading unit axis added).
  Writing step(x, A) for "A plus the product computed from the four input blocks x", the accumulator ends at
  step(x, Z) or step(x, A), and the output block is that with the unit axis added.
-/
import proofs.«145643_j53695681135019_1_alg».proof.Proof.Gen.KernelIdeal.Frame
import proofs.«145643_j53695681135019_1_alg».proof.Proof.LibReadCovWhole
import Idealize.ShloMosaic.Lib.Pipeline.Value
import Idealize.ShloMosaic.Lib.Tactic

noncomputable section

open Idealize.ShloMosaic Idealize.ShloMosaic.TcCoe Idealize.SL.Sem

namespace Cert.KernelIdeal.GluPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile: the accumulator ends at what the point before left plus this tile's product. -/
theorem acc_later (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc : ¬cond0_0 i)
    (x0 : Vec F S1x512x2048 .bf16) (x1 : Vec F S1x2048x512 .bf16) (x2 : Vec F S1x2048x512 .bf16) (x3 : Vec F S1x512x2048 .bf16) (xs0 : Vec F S512x2048 .f32) :
    sout0_B_0 c i a3 h3 a4 h4 a5 h5 a6 h6 a7 h7 a8 h8 hc x0 x1 x2 x3 xs0 = k0_pay2 x0 x1 x2 x3 xs0 := by
  unfold sout0_B_0
  rw [View.read_writes_eq_canon _ _ _ (scover0_B_0 c i a3 h3 a4 h4 a5 h5 a6 h6 a7 h7 a8 h8 hc x0 x1 x2 x3 xs0)]
  unfold kernelRun0_B
  dsimp only
  sl_unfold_words
  rw [View.canon_unit_zero hz2]
  simp only [View.readAt_eq_ld, h3.read_unread, h4.read_unread, h5.read_unread, h6.read_unread, h8.read_unread,
    View.ld_unit_zero (S := S1x512x2048) hz3, View.ld_unit_zero (S := S1x2048x512) hz3, View.ld_unit_zero (S := S512x2048) hz2]

/-- A later tile: the output block is the accumulator's new contents with a unit axis in front. -/
theorem out_later (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc : ¬cond0_0 i)
    (x0 : Vec F S1x512x2048 .bf16) (x1 : Vec F S1x2048x512 .bf16) (x2 : Vec F S1x2048x512 .bf16) (x3 : Vec F S1x512x2048 .bf16) (xs0 : Vec F S512x2048 .f32) :
    out0_B_4 c i a3 h3 a4 h4 a5 h5 a6 h6 a7 h7 a8 h8 hc x0 x1 x2 x3 xs0 = k0_pay3 (k0_pay2 x0 x1 x2 x3 xs0) := by
  unfold out0_B_4
  rw [View.read_writes_eq_canon _ _ _ (cover0_B_4 c i a3 h3 a4 h4 a5 h5 a6 h6 a7 h7 a8 h8 hc x0 x1 x2 x3 xs0)]
  unfold kernelRun0_B
  dsimp only
  sl_unfold_words
  rw [View.canon_unit_zero hz3]
  simp only [View.readCov_unit_zero (S := S512x2048) _ hz2, View.readAt_eq_ld, h3.read_unread, h4.read_unread, h5.read_unread,
    h6.read_unread, h8.read_unread, View.ld_unit_zero (S := S1x512x2048) hz3, View.ld_unit_zero (S := S1x2048x512) hz3,
    View.ld_unit_zero (S := S512x2048) hz2]

/-- The first tile: the accumulator ends at the zero block plus this tile's product. -/
theorem acc_first (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc : cond0_0 i)
    (x0 : Vec F S1x512x2048 .bf16) (x1 : Vec F S1x2048x512 .bf16) (x2 : Vec F S1x2048x512 .bf16) (x3 : Vec F S1x512x2048 .bf16) :
    sout0_A_0 c i a3 h3 a4 h4 a5 h5 a6 h6 a7 h7 a8 h8 hc x0 x1 x2 x3 = k0_pay2 x0 x1 x2 x3 k0_pay1 := by
  unfold sout0_A_0
  rw [View.read_writes_eq_canon _ _ _ (scover0_A_0 c i a3 h3 a4 h4 a5 h5 a6 h6 a7 h7 a8 h8 hc x0 x1 x2 x3)]
  unfold kernelRun0_A
  dsimp only
  sl_unfold_words
  rw [View.canon_cons_unit_zero (S := S512x2048) hz2]
  simp only [View.readCov_unit_zero (S := S512x2048) _ hz2, View.readAt_eq_ld, h3.read_unread, h4.read_unread, h5.read_unread,
    h6.read_unread, View.ld_unit_zero (S := S1x512x2048) hz3, View.ld_unit_zero (S := S1x2048x512) hz3]

/-- The first tile: the output block is the accumulator's new contents with a unit axis in front. -/
theorem out_first (c : Dev nD) (i : grid0.Coords) (a3 : Memref sig .tc .vmem S1x512x2048 .bf16) (h3 : a3.IsWhole) (a4 : Memref sig .tc .vmem S1x2048x512 .bf16) (h4 : a4.IsWhole) (a5 : Memref sig .tc .vmem S1x2048x512 .bf16) (h5 : a5.IsWhole) (a6 : Memref sig .tc .vmem S1x512x2048 .bf16) (h6 : a6.IsWhole) (a7 : Memref sig .tc .vmem S1x512x2048 .f32) (h7 : a7.IsWhole) (a8 : Memref sig .tc .vmem S512x2048 .f32) (h8 : a8.IsWhole) (hc : cond0_0 i)
    (x0 : Vec F S1x512x2048 .bf16) (x1 : Vec F S1x2048x512 .bf16) (x2 : Vec F S1x2048x512 .bf16) (x3 : Vec F S1x512x2048 .bf16) :
    out0_A_4 c i a3 h3 a4 h4 a5 h5 a6 h6 a7 h7 a8 h8 hc x0 x1 x2 x3 = k0_pay3 (k0_pay2 x0 x1 x2 x3 k0_pay1) := by
  unfold out0_A_4
  rw [View.read_writes_eq_canon _ _ _ (cover0_A_4 c i a3 h3 a4 h4 a5 h5 a6 h6 a7 h7 a8 h8 hc x0 x1 x2 x3)]
  unfold kernelRun0_A
  dsimp only
  sl_unfold_words
  rw [View.canon_unit_zero hz3]
  simp only [View.readCov_cons_whole (S := S512x2048) _ hz2, View.readCov_unit_zero (S := S512x2048) _ hz2, View.readAt_eq_ld,
    h3.read_unread, h4.read_unread, h5.read_unread, h6.read_unread, View.ld_unit_zero (S := S1x512x2048) hz3,
    View.ld_unit_zero (S := S1x2048x512) hz3]

end Cert.KernelIdeal.GluPieces

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.GluPayload.lean ====
/-
  The body's arithmetic at one index, over the extended reals.

  From the four input blocks — activations x [1,512,2048], gate and inner weights [1,2048,512], output weights
  [1,512,2048] — and the accumulator A [512,2048], the body computes, for row r and column d,
      A[r,d] + Σ_{k<512} ((g[r,k] · σ(g[r,k])) · v[r,k]) · outp[0,k,d],
  where g[r,k] = Σ_{d'<2048} x[0,r,d'] · gate[0,d',k] and v likewise with the inner weights: each matrix product into a
  zero accumulator is the plain sum over the contracted axis, narrowing to a shorter float format changes nothing, and
  dropping or adding a leading unit axis only renames the index.
-/
import proofs.«145643_j53695681135019_1_alg».proof.Proof.Gen.KernelIdeal.Skeleton
import proofs.«145643_j53695681135019_1_alg».proof.Proof.LibPlainDot
import Idealize.ShloMosaic.Lib.Pipeline.Value
import Idealize.ShloMosaic.Lib.ValueIdx

noncomputable section

namespace Cert.KernelIdeal.GluPay

open Cert.KernelIdeal Cert.KernelIdeal.Gen Idealize.ShloMosaic Idealize.ShloMosaic.ValueIdx

/-- Dropping a leading unit axis: entry (r, d) of the result is entry (0, r, d) of the operand. -/
theorem drop_unit {α : Type} {A B : ℕ} (v : (⟨3, ![1, A, B]⟩ : Shape).Idx → α)
    (h : (⟨3, ![1, A, B]⟩ : Shape).ShapeCasts ⟨2, ![A, B]⟩) (r : Fin A) (d : Fin B) :
    shapeCast ⟨2, ![A, B]⟩ v h (ix2 r d) = v (ix3 0 r d) := by
  refine shapeCast_apply v h (ix2 r d) (ix3 0 r d) ?_
  rw [Shape.rowMajor_val_three, Shape.rowMajor_val_two]
  show (0 * A + r.val) * B + d.val = r.val * B + d.val
  rw [Nat.zero_mul, Nat.zero_add]

/-- Adding a leading unit axis: entry (0, r, d) of the result is entry (r, d) of the operand. -/
theorem add_unit {α : Type} {A B : ℕ} (v : (⟨2, ![A, B]⟩ : Shape).Idx → α)
    (h : (⟨2, ![A, B]⟩ : Shape).ShapeCasts ⟨3, ![1, A, B]⟩) (r : Fin A) (d : Fin B) :
    shapeCast ⟨3, ![1, A, B]⟩ v h (ix3 0 r d) = v (ix2 r d) := by
  refine shapeCast_apply v h (ix3 0 r d) (ix2 r d) ?_
  rw [Shape.rowMajor_val_three, Shape.rowMajor_val_two]
  show r.val * B + d.val = (0 * A + r.val) * B + d.val
  rw [Nat.zero_mul, Nat.zero_add]

/-- Row r of an activations block against column k of a weight block. -/
def bproj (x : Vec Ideal S1x512x2048 .bf16) (w : Vec Ideal S1x2048x512 .bf16) (r k : Fin 512) : EReal :=
  ∑ d : Fin 2048, x (ix3 0 r d) * w (ix3 0 d k)

/-- The zero block is zero everywhere. -/
theorem zero_apply (r : Fin 512) (d : Fin 2048) : k0_pay1 (F := Ideal) (ix2 r d) = 0 := by
  unfold k0_pay1
  rw [shapeCast_self]
  exact Ideal.ofBits_zero_f32

/-- The output block is the accumulator with a unit axis in front. -/
theorem copy_apply (v : Vec Ideal S512x2048 .f32) (r : Fin 512) (d : Fin 2048) :
    k0_pay3 (F := Ideal) v (ix3 0 r d) = v (ix2 r d) := by
  unfold k0_pay3
  exact add_unit v _ r d

/-- A projection of the block: the matrix unit's product of the two blocks, their unit axes dropped. -/
theorem bproj_eq (x : Vec Ideal S1x512x2048 .bf16) (w : Vec Ideal S1x2048x512 .bf16) (r k : Fin 512) :
    matmul (F := Ideal) (φ₁ := .bf16) (φ₂ := .bf16) dot_S512x2048_S2048x512_S512x512_1_0_0_1_n_n none
      (shapeCast S512x2048 x shapeCasts_S1x512x2048_S512x2048) (shapeCast S2048x512 w shapeCasts_S1x2048x512_S2048x512)
      (constant S512x512 .f32 0x00000000#32) (ix2 r k) = bproj x w r k := by
  refine (plain_matmul_zero_apply (M := 512) (K := 2048) (N := 512) none _ _ (ix2 r k)).trans ?_
  unfold bproj
  refine Finset.sum_congr rfl fun d _ => ?_
  exact congrArg₂ (· * ·) (drop_unit x _ r d) (drop_unit w _ d k)

/-- The accumulator's step at an index. -/
theorem step_apply (x0 : Vec Ideal S1x512x2048 .bf16) (x1 x2 : Vec Ideal S1x2048x512 .bf16) (x3 : Vec Ideal S1x512x2048 .bf16)
    (acc : Vec Ideal S512x2048 .f32) (r : Fin 512) (d : Fin 2048) :
    k0_pay2 (F := Ideal) x0 x1 x2 x3 acc (ix2 r d)
      = acc (ix2 r d) + ∑ k : Fin 512, ((bproj x0 x1 r k * Ideal.logistic (bproj x0 x1 r k)) * bproj x0 x2 r k) * x3 (ix3 0 k d) := by
  unfold k0_pay2
  rw [shapeCast_self]
  refine congrArg (acc (ix2 r d) + ·) ?_
  refine (plain_matmul_zero_apply (M := 512) (K := 512) (N := 2048) none _ _ (ix2 r d)).trans ?_
  refine Finset.sum_congr rfl fun k _ => ?_
  refine congrArg₂ (· * ·) ?_ (drop_unit x3 _ k d)
  exact congrArg₂ (· * ·) (congrArg₂ (· * ·) (bproj_eq x0 x1 r k) (congrArg Ideal.logistic (bproj_eq x0 x1 r k))) (bproj_eq x0 x2 r k)

end Cert.KernelIdeal.GluPay

end
-- ==== Proof.GluBlocks.lean ====
/-
  The four input blocks of a grid point, read index by index off the argument arrays.

  Before the region the host narrows the activations and reshapes-then-narrows the three flat weight arrays; over the
  extended reals narrowing changes nothing, and the reshape reads expert e's row at the flat row e·2048+d (e·4096+i for
  the output weights).  At point n = (e, b, j) — expert, token block, inner tile — the activations' block is rows
  b·512 … b·512+511 of expert e, the gate and inner blocks are columns j·512 … of expert e's weights, and the output
  weights' block is rows j·512 … of expert e's.  Hence the tile's product computed from the blocks is the
  specification's share of tile j for the point's expert and token row.
-/
import proofs.«145643_j53695681135019_1_alg».proof.Proof.Gen.KernelIdeal.Frame
import proofs.«145643_j53695681135019_1_alg».proof.Proof.GluSpec
import proofs.«145643_j53695681135019_1_alg».proof.Proof.GluPayload
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem

namespace Cert.KernelIdeal.GluBlocks

open Cert.KernelIdeal Cert.KernelIdeal.Gen Idealize.ShloMosaic.ValueIdx Cert.Glu Cert.KernelIdeal.GluPay

variable (m : (ℓ : Loc nD τ sig) → Buf (Elt Ideal) ℓ)

/-- The argument arrays as launched. -/
abbrev argX (c : Dev nD) : SX.Idx → EReal := m ((c : Thread nD τ).loc main_arg0)
abbrev argG (c : Dev nD) : SW.Idx → EReal := m ((c : Thread nD τ).loc main_arg1)
abbrev argV (c : Dev nD) : SW.Idx → EReal := m ((c : Thread nD τ).loc main_arg2)
abbrev argP (c : Dev nD) : SP.Idx → EReal := m ((c : Thread nD τ).loc main_arg3)

/-- The blocks of a point, at their literal types. -/
abbrev blkX (c : Dev nD) (t : Fin cfg0.N) : Vec Ideal S1x512x2048 .bf16 := iblk m c 0 t
abbrev blkG (c : Dev nD) (t : Fin cfg0.N) : Vec Ideal S1x2048x512 .bf16 := iblk m c 1 t
abbrev blkV (c : Dev nD) (t : Fin cfg0.N) : Vec Ideal S1x2048x512 .bf16 := iblk m c 2 t
abbrev blkP (c : Dev nD) (t : Fin cfg0.N) : Vec Ideal S1x512x2048 .bf16 := iblk m c 3 t

/-- The block indices of the five windows at every point of the grid. -/
theorem idx_facts : ∀ t : Fin cfg0.N,
    win0_0.index t (0 : Fin 3) = t.val / 16 % 8 ∧ win0_0.index t (1 : Fin 3) = t.val / 8 % 2 ∧ win0_0.index t (2 : Fin 3) = 0
    ∧ win0_1.index t (0 : Fin 3) = t.val / 16 % 8 ∧ win0_1.index t (1 : Fin 3) = 0 ∧ win0_1.index t (2 : Fin 3) = t.val % 8
    ∧ win0_2.index t (0 : Fin 3) = t.val / 16 % 8 ∧ win0_2.index t (1 : Fin 3) = 0 ∧ win0_2.index t (2 : Fin 3) = t.val % 8
    ∧ win0_3.index t (0 : Fin 3) = t.val / 16 % 8 ∧ win0_3.index t (1 : Fin 3) = t.val % 8 ∧ win0_3.index t (2 : Fin 3) = 0
    ∧ win0_4.index t (0 : Fin 3) = t.val / 16 % 8 ∧ win0_4.index t (1 : Fin 3) = t.val / 8 % 2 ∧ win0_4.index t (2 : Fin 3) = 0 :=
  (by decide +kernel : ∀ t : Fin grid0.N, _)

/-- Reading a [E·A, B] array as [E, A, B]: entry (e, a, b) is entry (e·A+a, b). -/
theorem reshape3_apply {α : Type} {E A B : ℕ} (v : (⟨2, ![E * A, B]⟩ : Shape).Idx → α)
    (h : (⟨2, ![E * A, B]⟩ : Shape).ShapeCasts ⟨3, ![E, A, B]⟩) (e : Fin E) (a : Fin A) (b : Fin B) (row : Fin (E * A))
    (hrow : row.val = e.val * A + a.val) :
    shapeCast ⟨3, ![E, A, B]⟩ v h (ix3 e a b) = v (ix2 row b) := by
  refine shapeCast_apply v h (ix3 e a b) (ix2 row b) ?_
  rw [Shape.rowMajor_val_three, Shape.rowMajor_val_two]
  show row.val * B + b.val = (e.val * A + a.val) * B + b.val
  rw [hrow]

/-- The activations the region finds are the argument's. -/
theorem V_x (c : Dev nD) : (V m c main_v0 : S8x1024x2048.Idx → EReal) = argX m c := by
  dsimp only [Gen.V, Gen.hostOps0]; after_results; rfl

/-- The gate weights the region finds are the argument's, reshaped. -/
theorem V_g (c : Dev nD) : (V m c main_v2 : S8x2048x4096.Idx → EReal)
    = shapeCast S8x2048x4096 (argG m c) shapeCasts_S16384x4096_S8x2048x4096 := by
  dsimp only [Gen.V, Gen.hostOps0]; after_results; rfl

/-- The inner weights likewise. -/
theorem V_v (c : Dev nD) : (V m c main_v4 : S8x2048x4096.Idx → EReal)
    = shapeCast S8x2048x4096 (argV m c) shapeCasts_S16384x4096_S8x2048x4096 := by
  dsimp only [Gen.V, Gen.hostOps0]; after_results; rfl

/-- The output weights likewise. -/
theorem V_p (c : Dev nD) : (V m c main_v6 : S8x4096x2048.Idx → EReal)
    = shapeCast S8x4096x2048 (argP m c) shapeCasts_S32768x2048_S8x4096x2048 := by
  dsimp only [Gen.V, Gen.hostOps0]; after_results; rfl

/-- The activations' block: rows of the point's token block, of its expert. -/
theorem blkX_apply (c : Dev nD) (t : Fin cfg0.N) (r : Fin 512) (d : Fin 2048) :
    blkX m c t (ix3 0 r d) = argX m c (ix3 (pe t.val) (tokIx (pb t.val) r) d) := by
  obtain ⟨e0, e1, e2, -⟩ := idx_facts t
  unfold blkX iblk
  rw [View.read_apply]
  show (V m c main_v0 : S8x1024x2048.Idx → EReal) (((cfg0.win 0).blk t).view.emb (ix3 0 r d)) = _
  rw [V_x]
  refine congrArg (argX m c) ?_
  funext a; apply Fin.ext
  match a with
  | ⟨0, _⟩ => show win0_0.index t (0 : Fin 3) * 1 + 1 * 0 = t.val / 16 % 8; omega
  | ⟨1, _⟩ => show win0_0.index t (1 : Fin 3) * 512 + 1 * r.val = t.val / 8 % 2 * 512 + r.val; omega
  | ⟨2, _⟩ => show win0_0.index t (2 : Fin 3) * 2048 + 1 * d.val = d.val; omega

/-- The gate block: the point's tile of columns of its expert's gate weights. -/
theorem blkG_apply (c : Dev nD) (t : Fin cfg0.N) (d : Fin 2048) (k : Fin 512) :
    blkG m c t (ix3 0 d k) = argG m c (ix2 (wrow (pe t.val) d) (tileIx (pj t.val) k)) := by
  obtain ⟨-, -, -, e0, e1, e2, -⟩ := idx_facts t
  unfold blkG iblk
  rw [View.read_apply]
  show (V m c main_v2 : S8x2048x4096.Idx → EReal) (((cfg0.win 1).blk t).view.emb (ix3 0 d k)) = _
  rw [V_g]
  refine (congrArg _ (?_ : _ = ix3 (pe t.val) d (tileIx (pj t.val) k))).trans (reshape3_apply (E := 8) (A := 2048) (B := 4096) _ _ _ _ _ _ rfl)
  funext a; apply Fin.ext
  match a with
  | ⟨0, _⟩ => show win0_1.index t (0 : Fin 3) * 1 + 1 * 0 = t.val / 16 % 8; omega
  | ⟨1, _⟩ => show win0_1.index t (1 : Fin 3) * 2048 + 1 * d.val = d.val; omega
  | ⟨2, _⟩ => show win0_1.index t (2 : Fin 3) * 512 + 1 * k.val = t.val % 8 * 512 + k.val; omega

/-- The inner block: the same tile of its expert's inner weights. -/
theorem blkV_apply (c : Dev nD) (t : Fin cfg0.N) (d : Fin 2048) (k : Fin 512) :
    blkV m c t (ix3 0 d k) = argV m c (ix2 (wrow (pe t.val) d) (tileIx (pj t.val) k)) := by
  obtain ⟨-, -, -, -, -, -, e0, e1, e2, -⟩ := idx_facts t
  unfold blkV iblk
  rw [View.read_apply]
  show (V m c main_v4 : S8x2048x4096.Idx → EReal) (((cfg0.win 2).blk t).view.emb (ix3 0 d k)) = _
  rw [V_v]
  refine (congrArg _ (?_ : _ = ix3 (pe t.val) d (tileIx (pj t.val) k))).trans (reshape3_apply (E := 8) (A := 2048) (B := 4096) _ _ _ _ _ _ rfl)
  funext a; apply Fin.ext
  match a with
  | ⟨0, _⟩ => show win0_2.index t (0 : Fin 3) * 1 + 1 * 0 = t.val / 16 % 8; omega
  | ⟨1, _⟩ => show win0_2.index t (1 : Fin 3) * 2048 + 1 * d.val = d.val; omega
  | ⟨2, _⟩ => show win0_2.index t (2 : Fin 3) * 512 + 1 * k.val = t.val % 8 * 512 + k.val; omega

/-- The output weights' block: the point's tile of rows of its expert's output weights. -/
theorem blkP_apply (c : Dev nD) (t : Fin cfg0.N) (k : Fin 512) (d : Fin 2048) :
    blkP m c t (ix3 0 k d) = argP m c (ix2 (prow (pe t.val) (tileIx (pj t.val) k)) d) := by
  obtain ⟨-, -, -, -, -, -, -, -, -, e0, e1, e2, -⟩ := idx_facts t
  unfold blkP iblk
  rw [View.read_apply]
  show (V m c main_v6 : S8x4096x2048.Idx → EReal) (((cfg0.win 3).blk t).view.emb (ix3 0 k d)) = _
  rw [V_p]
  refine (congrArg _ (?_ : _ = ix3 (pe t.val) (tileIx (pj t.val) k) d)).trans (reshape3_apply (E := 8) (A := 4096) (B := 2048) _ _ _ _ _ _ rfl)
  funext a; apply Fin.ext
  match a with
  | ⟨0, _⟩ => show win0_3.index t (0 : Fin 3) * 1 + 1 * 0 = t.val / 16 % 8; omega
  | ⟨1, _⟩ => show win0_3.index t (1 : Fin 3) * 512 + 1 * k.val = t.val % 8 * 512 + k.val; omega
  | ⟨2, _⟩ => show win0_3.index t (2 : Fin 3) * 2048 + 1 * d.val = d.val; omega

/-- A block projection is the specification's projection at the point's expert, token row and tile coordinate. -/
theorem bproj_g (c : Dev nD) (t : Fin cfg0.N) (r k : Fin 512) :
    bproj (blkX m c t) (blkG m c t) r k = proj (argX m c) (argG m c) (pe t.val) (tokIx (pb t.val) r) (tileIx (pj t.val) k) := by
  unfold bproj proj
  exact Finset.sum_congr rfl fun d _ => congrArg₂ (· * ·) (blkX_apply m c t r d) (blkG_apply m c t d k)

theorem bproj_v (c : Dev nD) (t : Fin cfg0.N) (r k : Fin 512) :
    bproj (blkX m c t) (blkV m c t) r k = proj (argX m c) (argV m c) (pe t.val) (tokIx (pb t.val) r) (tileIx (pj t.val) k) := by
  unfold bproj proj
  exact Finset.sum_congr rfl fun d _ => congrArg₂ (· * ·) (blkX_apply m c t r d) (blkV_apply m c t d k)

/-- The product the body adds at point t is the specification's share of the point's tile. -/
theorem tile_eq (c : Dev nD) (t : Fin cfg0.N) (r : Fin 512) (d : Fin 2048) :
    ∑ k : Fin 512, ((bproj (blkX m c t) (blkG m c t) r k * Ideal.logistic (bproj (blkX m c t) (blkG m c t) r k))
        * bproj (blkX m c t) (blkV m c t) r k) * blkP m c t (ix3 0 k d)
      = tile (argX m c) (argG m c) (argV m c) (argP m c) (pe t.val) (tokIx (pb t.val) r) d (pj t.val) := by
  unfold tile hid
  refine Finset.sum_congr rfl fun k _ => ?_
  rw [bproj_g, bproj_v, blkP_apply]

end Cert.KernelIdeal.GluBlocks

end
-- ==== Proof.GluAccum.lean ====
/-
  The accumulator along the grid.

  Each (expert, token block) pair owns a run of eight consecutive grid points, one per inner tile.  At the run's first
  point the accumulator is zeroed and stepped, at each later point it is stepped from what the point before left, and
  every point copies it to the output block.  By induction on the point, after point n the accumulator's entry (r, d) is
  the sum of the shares of tiles 0 … n mod 8 of the result entry (expert, token row, d) — the specification's partial
  sum —, so after a run's last point it is the whole entry.
-/
import proofs.«145643_j53695681135019_1_alg».proof.Proof.GluPieces
import proofs.«145643_j53695681135019_1_alg».proof.Proof.GluBlocks

noncomputable section

open Idealize.ShloMosaic Idealize.ShloMosaic.TcCoe Idealize.SL.Sem

namespace Cert.KernelIdeal.GluAccum

open Cert.KernelIdeal Cert.KernelIdeal.Gen Idealize.ShloMosaic.ValueIdx Cert.Glu Cert.KernelIdeal.GluPay
open Cert.KernelIdeal.GluBlocks Cert.KernelIdeal.GluPieces

variable (m : (ℓ : Loc nD τ sig) → Buf (Elt Ideal) ℓ)

/-- At a run's first point the accumulator ends at the zero block stepped with the point's blocks. -/
theorem acc_at_first (c : Dev nD) (t : Fin cfg0.N) (h0 : t.val % 8 = 0) :
    (outsAt0 m c t.val t.isLt).2 = k0_pay2 (blkX m c t) (blkG m c t) (blkV m c t) (blkP m c t) (k0_pay1 (F := Ideal)) := by
  rw [outsAt0_A m c t h0]
  dsimp only
  exact acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX m c t) (blkG m c t) (blkV m c t) (blkP m c t)

/-- At a later point it ends at what the point before left, stepped with the point's blocks. -/
theorem acc_at_later (c : Dev nD) (t : Fin cfg0.N) (h0 : ¬t.val % 8 = 0) :
    (outsAt0 m c t.val t.isLt).2 = k0_pay2 (blkX m c t) (blkG m c t) (blkV m c t) (blkP m c t)
      ((outsAt0 m c (t.val - 1) (Nat.lt_of_le_of_lt (Nat.sub_le _ _) t.isLt)).2) := by
  rw [outsAt0_B m c t h0]
  dsimp only
  exact acc_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX m c t) (blkG m c t) (blkV m c t) (blkP m c t)
    ((outsAt0 m c (t.val - 1) (Nat.lt_of_le_of_lt (Nat.sub_le _ _) t.isLt)).2)

/-- At every point the output block is the accumulator's new contents with a unit axis in front. -/
theorem out_at (c : Dev nD) (t : Fin cfg0.N) :
    (outsAt0 m c t.val t.isLt).1 = k0_pay3 ((outsAt0 m c t.val t.isLt).2) := by
  by_cases h0 : t.val % 8 = 0
  · rw [outsAt0_A m c t h0]
    dsimp only
    exact (out_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX m c t) (blkG m c t) (blkV m c t) (blkP m c t)).trans
      (congrArg k0_pay3 (acc_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (blkX m c t) (blkG m c t) (blkV m c t) (blkP m c t)).symm)
  · rw [outsAt0_B m c t h0]
    dsimp only
    exact (out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX m c t) (blkG m c t) (blkV m c t) (blkP m c t)
        ((outsAt0 m c (t.val - 1) (Nat.lt_of_le_of_lt (Nat.sub_le _ _) t.isLt)).2)).trans
      (congrArg k0_pay3 (acc_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (blkX m c t) (blkG m c t) (blkV m c t) (blkP m c t)
        ((outsAt0 m c (t.val - 1) (Nat.lt_of_le_of_lt (Nat.sub_le _ _) t.isLt)).2)).symm)

/-- One step at an index: the accumulator's entry plus the specification's share of the point's tile. -/
theorem step_at (c : Dev nD) (t : Fin cfg0.N) (acc : Vec Ideal S512x2048 .f32) (r : Fin 512) (d : Fin 2048) :
    k0_pay2 (F := Ideal) (blkX m c t) (blkG m c t) (blkV m c t) (blkP m c t) acc (ix2 r d)
      = acc (ix2 r d) + tile (argX m c) (argG m c) (argV m c) (argP m c) (pe t.val) (tokIx (pb t.val) r) d (pj t.val) :=
  (step_apply (blkX m c t) (blkG m c t) (blkV m c t) (blkP m c t) acc r d).trans
    (congrArg (acc (ix2 r d) + ·) (tile_eq m c t r d))

/-- After point n the accumulator holds the partial sums of its run. -/
theorem acc_eq (c : Dev nD) : ∀ (n : ℕ) (h : n < cfg0.N) (r : Fin 512) (d : Fin 2048),
    (outsAt0 m c n h).2 (ix2 r d) = partialAt (argX m c) (argG m c) (argV m c) (argP m c) n r d
  | 0, h, r, d => by
    refine (congrFun (acc_at_first m c ⟨0, h⟩ rfl) (ix2 r d)).trans ?_
    refine (step_at m c ⟨0, h⟩ _ r d).trans ?_
    rw [zero_apply]
    exact partial_first _ _ _ _ 0 rfl r d
  | n + 1, h, r, d => by
    by_cases h0 : (n + 1) % 8 = 0
    · refine (congrFun (acc_at_first m c ⟨n + 1, h⟩ h0) (ix2 r d)).trans ?_
      refine (step_at m c ⟨n + 1, h⟩ _ r d).trans ?_
      rw [zero_apply]
      exact partial_first _ _ _ _ (n + 1) h0 r d
    · refine (congrFun (acc_at_later m c ⟨n + 1, h⟩ h0) (ix2 r d)).trans ?_
      refine (step_at m c ⟨n + 1, h⟩ _ r d).trans ?_
      show (outsAt0 m c n _).2 (ix2 r d) + _ = _
      rw [acc_eq c n _ r d]
      exact partial_step _ _ _ _ n h0 r d

end Cert.KernelIdeal.GluAccum

end
-- ==== Proof.GluFinal.lean ====
/-
  The result array after the run.

  The output block of a (expert, token block) pair is written back to the array once, after the run's last inner tile,
  when the accumulator holds the whole result entries: the block written is rows b·512 … b·512+511 of expert e of the
  specification's result.  The sixteen blocks written tile the [8, 1024, 2048] array, so the array ends holding the
  specification's result everywhere.
-/
import proofs.«145643_j53695681135019_1_alg».proof.Proof.Gen.KernelIdeal.Value
import proofs.«145643_j53695681135019_1_alg».proof.Proof.GluAccum

noncomputable section

open Idealize.ShloMosaic Idealize.ShloMosaic.TcCoe Idealize.SL.Sem
open Idealize.ShloMosaic.Pipeline (Dat)

namespace Cert.KernelIdeal.GluFinal

open Cert.KernelIdeal Cert.KernelIdeal.Gen Idealize.ShloMosaic.ValueIdx Cert.Glu Cert.KernelIdeal.GluPay
open Cert.KernelIdeal.GluBlocks Cert.KernelIdeal.GluAccum

variable (m : (ℓ : Loc nD τ sig) → Buf (Elt Ideal) ℓ) (ρ : Dev nD → PrngReg)

/-- The specification's result of the argument arrays as launched, as contents of the result array. -/
abbrev result (c : Dev nD) : Buf (Elt Ideal) ((c : Thread nD τ).loc main_v7) :=
  G (argX m c) (argG m c) (argV m c) (argP m c)

/-- After a run's last point the output block, entry by entry, is the result at the block's place in the array. -/
theorem out_block_apply (c : Dev nD) (t : Fin cfg0.N) (h7 : t.val % 8 = 7) (y : S1x512x2048.Idx) :
    k0_pay3 (F := Ideal) ((outsAt0 m c t.val t.isLt).2) y = result m c (((cfg0.win 4).blk t).view.emb y) := by
  have hy0 : (y 0).val < 1 := (y 0).isLt
  obtain ⟨r, d, rfl⟩ : ∃ (r : Fin 512) (d : Fin 2048), y = ix3 (0 : Fin 1) r d :=
    ⟨y 1, y 2, (eq_ix3 y).trans (congrArg (fun z : Fin 1 => ix3 z (y 1) (y 2)) (Fin.ext (by show (y 0).val = 0; omega) : y 0 = (0 : Fin 1)))⟩
  obtain ⟨-, -, -, -, -, -, -, -, -, -, -, -, e0, e1, e2⟩ := idx_facts t
  rw [copy_apply, acc_eq m c t.val t.isLt r d, partial_last _ _ _ _ t.val h7 r d]
  refine congrArg (result m c) ?_
  funext a; apply Fin.ext
  match a with
  | ⟨0, _⟩ => show t.val / 16 % 8 = win0_4.index t (0 : Fin 3) * 1 + 1 * 0; omega
  | ⟨1, _⟩ => show t.val / 8 % 2 * 512 + r.val = win0_4.index t (1 : Fin 3) * 512 + 1 * r.val; omega
  | ⟨2, _⟩ => show d.val = win0_4.index t (2 : Fin 3) * 2048 + 1 * d.val; omega

/-- What a write-back writes is its block of the result. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  rw [Value.flushed4, out_at]
  funext y
  exact out_block_apply m c t h7 y

/-- An index of the array is in point t's block iff each coordinate is in the block's range on its axis. -/
theorem mem_blk (t : Fin cfg0.N) (i : S8x1024x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v7).slice (win0_4.rect t)).set ↔ _
  rw [View.set_slice_whole, Rect.mem_set_unit]
  exact Iff.rfl

/-- Every index of the array is in the block some run's last point writes back. -/
theorem cover (i : S8x1024x2048.Idx) : ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 2048 := (i 2).isLt
  have hN : cfg0.N = 128 := N_0
  let t : Fin cfg0.N := ⟨(i 0).val * 16 + (i 1).val / 512 * 8 + 7, by rw [hN]; omega⟩
  have ht : t.val = (i 0).val * 16 + (i 1).val / 512 * 8 + 7 := rfl
  obtain ⟨-, -, -, -, -, -, -, -, -, -, -, -, e0, e1, e2⟩ := idx_facts t
  refine ⟨t, (flush0_4 t).mpr (by rw [ht]; omega), ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- The result array after the run is the specification's result. -/
theorem final (c : Dev nD) : (dats m 0 c).arrAt 4 cfg0.N = result m c :=
  (dats m 0 c).arrAt_eq_of_cover 4 (result m c) (flushed_eq m c) cover

/-- The kernel's run: it terminates with the result array at the specification's result and the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.GluFinal

end
-- ==== Proof.lean ====
/-
  The claim: the tiled gated expert network computes, over the extended reals, what its plain reference computes.

  Both programs end with the result array at one function of the argument arrays (the specification's result): the
  kernel because each (expert, token block) run accumulates the eight inner tiles' shares of every entry, zero first,
  left to right, and writes the block back after the last tile; the reference because its three batched products are
  sums over the contracted axes and its silu is z · (1 / (1 + e^(−z))), the logistic function the kernel applies.  A sum
  over 4096 coordinates equals the sum of its eight tiles' sums in any commutative monoid, so the inputs' finiteness is
  never used.  The three frames are the generated frame runs (the reference's is its generated run with the result
  dropped), and the idealization rewrote nothing.
-/
import proofs.«145643_j53695681135019_1_alg».proof.Defs
import proofs.«145643_j53695681135019_1_alg».proof.Proof.Gen.Kernel
import proofs.«145643_j53695681135019_1_alg».proof.Proof.Gen.Kernel.Skeleton
import proofs.«145643_j53695681135019_1_alg».proof.Proof.Gen.Kernel.Launch
import proofs.«145643_j53695681135019_1_alg».proof.Proof.Gen.Kernel.Points
import proofs.«145643_j53695681135019_1_alg».proof.Proof.Gen.Kernel.Frame
import proofs.«145643_j53695681135019_1_alg».proof.Proof.Gen.KernelIdeal
import proofs.«145643_j53695681135019_1_alg».proof.Proof.Gen.KernelIdeal.Skeleton
import proofs.«145643_j53695681135019_1_alg».proof.Proof.Gen.KernelIdeal.Launch
import proofs.«145643_j53695681135019_1_alg».proof.Proof.Gen.KernelIdeal.Points
import proofs.«145643_j53695681135019_1_alg».proof.Proof.Gen.KernelIdeal.Frame
import proofs.«145643_j53695681135019_1_alg».proof.Proof.Gen.ReferenceIdeal
import proofs.«145643_j53695681135019_1_alg».proof.Proof.Gen.Pre_finite_inputs
import proofs.«145643_j53695681135019_1_alg».proof.Proof.Gen.KernelIdeal.Value
import proofs.«145643_j53695681135019_1_alg».proof.Proof.Gen.ReferenceIdeal.Run
import proofs.«145643_j53695681135019_1_alg».proof.Proof.Gen.ReferenceIdeal.Read
import proofs.«145643_j53695681135019_1_alg».proof.Proof.GluRef
import proofs.«145643_j53695681135019_1_alg».proof.Proof.GluFinal
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, both programs end with the result array at the specification's result of them. -/
theorem algebraic : Cert.algebraic_KernelIdeal_ReferenceIdeal := by
  intro m ρ m' ρ' _ hagree
  refine ⟨fun c => Cert.KernelIdeal.GluFinal.result m c, Cert.KernelIdeal.GluFinal.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq _ _ _ _).trans ?_
  rw [Cert.ReferenceIdeal.GluRef.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
